-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x2 : Shape := ⟨3, ![1, 64, 2]⟩
abbrev S1x64x1 : Shape := ⟨3, ![1, 64, 1]⟩
abbrev S1x3x1 : Shape := ⟨3, ![1, 3, 1]⟩
abbrev S1x4194304x2 : Shape := ⟨3, ![1, 4194304, 2]⟩
abbrev S_ : Shape := ⟨0, ![]⟩

class Facts : Prop where
  bcast_S_S1x64x2 : S_.BroadcastsInDim S1x64x2 (![] : Fin 0 → Fin S1x64x2.rank)
  reducesTo_S1x64x2_S_d0_1_2 : S1x64x2.ReducesTo [0, 1, 2] S_
  h_S_ : 0 < S_.numel
  bcast_S_S1x64x1 : S_.BroadcastsInDim S1x64x1 (![] : Fin 0 → Fin S1x64x1.rank)
  reducesTo_S1x64x1_S_d0_1_2 : S1x64x1.ReducesTo [0, 1, 2] S_
  bcast_S_S1x3x1 : S_.BroadcastsInDim S1x3x1 (![] : Fin 0 → Fin S1x3x1.rank)
  reducesTo_S1x3x1_S_d0_1_2 : S1x3x1.ReducesTo [0, 1, 2] S_
  bcast_S_S1x4194304x2 : S_.BroadcastsInDim S1x4194304x2 (![] : Fin 0 → Fin S1x4194304x2.rank)
  reducesTo_S1x4194304x2_S_d0_1_2 : S1x4194304x2.ReducesTo [0, 1, 2] S_

variable [Facts]

def fn_part1 {F : FTy → Type} [FloatOps F] (main_v13 : IVec S_ 1) (main_v16 : IVec S1x4194304x2 1) : IVec S_ 1 :=
  let main_c_5 : IVec S_ 1 := constantI S_ 1 1#1
  let main_v17 : IVec S_ 1 := (fun x v => Host.reduce IntOp.andi x v reducesTo_S1x4194304x2_S_d0_1_2 h_S_) main_v16 main_c_5
  let main_v18 : IVec S_ 1 := andi main_v13 main_v17
  main_v18

def fn {F : FTy → Type} [FloatOps F] (main_arg0 : FVec F S1x64x2 .f32) (main_arg1 : FVec F S1x64x1 .f32) (main_arg2 : FVec F S1x3x1 .f32) (main_arg3 : FVec F S1x4194304x2 .f32) : IVec S_ 1 :=
  let main_v0 : FVec F S1x64x2 .f32 := Host.absf main_arg0
  let main_cst : FVec F S_ .f32 := constant S_ .f32 0x7F800000#32
  let main_v1 : FVec F S1x64x2 .f32 := broadcastInDim S1x64x2 ![] bcast_S_S1x64x2 main_cst
  let main_v2 : IVec S1x64x2 1 := cmpf .olt main_v0 main_v1
  let main_c : IVec S_ 1 := constantI S_ 1 1#1
  let main_v3 : IVec S_ 1 := (fun x v => Host.reduce IntOp.andi x v reducesTo_S1x64x2_S_d0_1_2 h_S_) main_v2 main_c
  let main_v4 : FVec F S1x64x1 .f32 := Host.absf main_arg1
  let main_cst_0 : FVec F S_ .f32 := constant S_ .f32 0x7F800000#32
  let main_v5 : FVec F S1x64x1 .f32 := broadcastInDim S1x64x1 ![] bcast_S_S1x64x1 main_cst_0
  let main_v6 : IVec S1x64x1 1 := cmpf .olt main_v4 main_v5
  let main_c_1 : IVec S_ 1 := constantI S_ 1 1#1
  let main_v7 : IVec S_ 1 := (fun x v => Host.reduce IntOp.andi x v reducesTo_S1x64x1_S_d0_1_2 h_S_) main_v6 main_c_1
  let main_v8 : IVec S_ 1 := andi main_v3 main_v7
  let main_v9 : FVec F S1x3x1 .f32 := Host.absf main_arg2
  let main_cst_2 : FVec F S_ .f32 := constant S_ .f32 0x7F800000#32
  let main_v10 : FVec F S1x3x1 .f32 := broadcastInDim S1x3x1 ![] bcast_S_S1x3x1 main_cst_2
  let main_v11 : IVec S1x3x1 1 := cmpf .olt main_v9 main_v10
  let main_c_3 : IVec S_ 1 := constantI S_ 1 1#1
  let main_v12 : IVec S_ 1 := (fun x v => Host.reduce IntOp.andi x v reducesTo_S1x3x1_S_d0_1_2 h_S_) main_v11 main_c_3
  let main_v13 : IVec S_ 1 := andi main_v8 main_v12
  let main_v14 : FVec F S1x4194304x2 .f32 := Host.absf main_arg3
  let main_cst_4 : FVec F S_ .f32 := constant S_ .f32 0x7F800000#32
  let main_v15 : FVec F S1x4194304x2 .f32 := broadcastInDim S1x4194304x2 ![] bcast_S_S1x4194304x2 main_cst_4
  let main_v16 : IVec S1x4194304x2 1 := cmpf .olt main_v14 main_v15
  fn_part1 (F := F) main_v13 main_v16
-- ==== Kernel.lean ====
abbrev S1x64x2 : Shape := ⟨3, ![1, 64, 2]⟩
abbrev S1x64x1 : Shape := ⟨3, ![1, 64, 1]⟩
abbrev S1x3x1 : Shape := ⟨3, ![1, 3, 1]⟩
abbrev S1x4194304x2 : Shape := ⟨3, ![1, 4194304, 2]⟩
abbrev S64x2 : Shape := ⟨2, ![64, 2]⟩
abbrev S64x1 : Shape := ⟨2, ![64, 1]⟩
abbrev S3x1 : Shape := ⟨2, ![3, 1]⟩
abbrev S4194304x2 : Shape := ⟨2, ![4194304, 2]⟩
abbrev S2x4194304 : Shape := ⟨2, ![2, 4194304]⟩
abbrev S1x4194304 : Shape := ⟨2, ![1, 4194304]⟩
abbrev S2x16384 : Shape := ⟨2, ![2, 16384]⟩
abbrev S1x16384 : Shape := ⟨2, ![1, 16384]⟩
abbrev S64x16384 : Shape := ⟨2, ![64, 16384]⟩
abbrev S16384 : Shape := ⟨1, ![16384]⟩
abbrev S1x1 : Shape := ⟨2, ![1, 1]⟩
abbrev S1x2048x2048x1 : Shape := ⟨4, ![1, 2048, 2048, 1]⟩

abbrev nBuf : Space → Nat
  | .hbm => 11
  | .vmem => 7
  | .smem => 0
  | _ => 0

abbrev bufTy : (tb : Table) → Fin (tcTables nBuf tb) → BufTy
  | .hbm, ⟨0, _⟩ => ⟨S1x64x2, .f32⟩
  | .hbm, ⟨1, _⟩ => ⟨S1x64x1, .f32⟩
  | .hbm, ⟨2, _⟩ => ⟨S1x3x1, .f32⟩
  | .hbm, ⟨3, _⟩ => ⟨S1x4194304x2, .f32⟩
  | .hbm, ⟨4, _⟩ => ⟨S64x2, .f32⟩
  | .hbm, ⟨5, _⟩ => ⟨S64x1, .f32⟩
  | .hbm, ⟨6, _⟩ => ⟨S3x1, .f32⟩
  | .hbm, ⟨7, _⟩ => ⟨S4194304x2, .f32⟩
  | .hbm, ⟨8, _⟩ => ⟨S2x4194304, .f32⟩
  | .hbm, ⟨9, _⟩ => ⟨S1x4194304, .f32⟩
  | .hbm, ⟨10, _⟩ => ⟨S1x2048x2048x1, .f32⟩
  | .local _ .vmem, ⟨0, _⟩ => ⟨S2x16384, .f32⟩
  | .local _ .vmem, ⟨1, _⟩ => ⟨S2x16384, .f32⟩
  | .local _ .vmem, ⟨2, _⟩ => ⟨S64x2, .f32⟩
  | .local _ .vmem, ⟨3, _⟩ => ⟨S64x1, .f32⟩
  | .local _ .vmem, ⟨4, _⟩ => ⟨S3x1, .f32⟩
  | .local _ .vmem, ⟨5, _⟩ => ⟨S1x16384, .f32⟩
  | .local _ .vmem, ⟨6, _⟩ => ⟨S1x16384, .f32⟩
  | _, _ => ⟨S1x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x64x2_S64x2 : S1x64x2.ShapeCasts S64x2
  shapeCasts_S1x64x1_S64x1 : S1x64x1.ShapeCasts S64x1
  shapeCasts_S1x3x1_S3x1 : S1x3x1.ShapeCasts S3x1
  shapeCasts_S1x4194304x2_S4194304x2 : S1x4194304x2.ShapeCasts S4194304x2
  transposes_S4194304x2_S2x4194304_1_0 : S4194304x2.Transposes [1, 0] S2x4194304
  inb_S2x16384_S2x16384_0_0 : ∀ a, (![0, 0] : Fin 2 → Nat) a + S2x16384.size a ≤ S2x16384.size a
  h_S2x16384 : 0 < S2x16384.numel
  shapeCasts_S2x16384_S2x16384 : S2x16384.ShapeCasts S2x16384
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S3x1_S3x1_0_0 : ∀ a, (![0, 0] : Fin 2 → Nat) a + S3x1.size a ≤ S3x1.size a
  h_S3x1 : 0 < S3x1.numel
  shapeCasts_S3x1_S3x1 : S3x1.ShapeCasts S3x1
  slices_S2x16384_o0_0_S1x16384 : S2x16384.Slices ![0, 0] S1x16384
  slices_S2x16384_o1_0_S1x16384 : S2x16384.Slices ![1, 0] S1x16384
  slices_S64x2_o0_0_S64x1 : S64x2.Slices ![0, 0] S64x1
  slices_S64x2_o0_1_S64x1 : S64x2.Slices ![0, 1] S64x1
  broadcasts_S64x1_S64x16384 : S64x1.Broadcasts S64x16384
  broadcasts_S1x16384_S64x16384 : S1x16384.Broadcasts S64x16384
  reduces_S64x16384_S16384 : S64x16384.Reduces [0] S16384
  shapeCasts_S16384_S1x16384 : S16384.ShapeCasts S1x16384
  slices_S3x1_o0_0_S1x1 : S3x1.Slices ![0, 0] S1x1
  broadcasts_S1x1_S1x16384 : S1x1.Broadcasts S1x16384
  slices_S3x1_o1_0_S1x1 : S3x1.Slices ![1, 0] S1x1
  slices_S3x1_o2_0_S1x1 : S3x1.Slices ![2, 0] S1x1
  inb_S1x16384_S1x16384_0_0 : ∀ a, (![0, 0] : Fin 2 → Nat) a + S1x16384.size a ≤ S1x16384.size a
  h_S1x16384 : 0 < S1x16384.numel
  shapeCasts_S1x4194304_S1x2048x2048x1 : S1x4194304.ShapeCasts S1x2048x2048x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16384.size a ≤ S2x4194304.size a
  hwx0_0 : ∀ i : grid0.Coords, EltTy.bits .f32 = 32 ∨ (Rect.block (s := S2x4194304) S2x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2.size a ≤ S64x2.size a
  hwx0_1 : ∀ i : grid0.Coords, EltTy.bits .f32 = 32 ∨ (Rect.block (s := S64x2) S64x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1.size a ≤ S3x1.size a
  hwx0_3 : ∀ i : grid0.Coords, EltTy.bits .f32 = 32 ∨ (Rect.block (s := S3x1) S3x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16384.size a ≤ S1x4194304.size a
  hwx0_4 : ∀ i : grid0.Coords, EltTy.bits .f32 = 32 ∨ (Rect.block (s := S1x4194304) S1x16384.size (cc0_transform_4 i) (hinb0_4 i)).WholeWords (EltTy.packing .f32)

variable [Facts₀]

abbrev win0_0 : Pipeline.Window sig grid0 :=
  Pipeline.Window.ofSpec (Memref.whole main_v4) S2x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x64x2 : Shape := ⟨3, ![1, 64, 2]⟩
abbrev S1x64x1 : Shape := ⟨3, ![1, 64, 1]⟩
abbrev S1x3x1 : Shape := ⟨3, ![1, 3, 1]⟩
abbrev S1x4194304x2 : Shape := ⟨3, ![1, 4194304, 2]⟩
abbrev S_ : Shape := ⟨0, ![]⟩
abbrev S1x4194304 : Shape := ⟨2, ![1, 4194304]⟩
abbrev S1x4194304x1 : Shape := ⟨3, ![1, 4194304, 1]⟩
abbrev S1x64 : Shape := ⟨2, ![1, 64]⟩
abbrev S1x4194304x64 : Shape := ⟨3, ![1, 4194304, 64]⟩
abbrev S1x1x64 : Shape := ⟨3, ![1, 1, 64]⟩
abbrev S1x4194304x3 : Shape := ⟨3, ![1, 4194304, 3]⟩
abbrev S1x2048x2048x1 : Shape := ⟨4, ![1, 2048, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S1x64x2, .f32⟩
  | .hbm, ⟨1, _⟩ => ⟨S1x64x1, .f32⟩
  | .hbm, ⟨2, _⟩ => ⟨S1x3x1, .f32⟩
  | .hbm, ⟨3, _⟩ => ⟨S1x4194304x2, .f32⟩
  | .hbm, ⟨4, _⟩ => ⟨S1x4194304x2, .f32⟩
  | .hbm, ⟨5, _⟩ => ⟨S_, .f32⟩
  | .hbm, ⟨6, _⟩ => ⟨S1x4194304, .f32⟩
  | .hbm, ⟨7, _⟩ => ⟨S1x4194304x1, .f32⟩
  | .hbm, ⟨8, _⟩ => ⟨S1x64x2, .f32⟩
  | .hbm, ⟨9, _⟩ => ⟨S_, .f32⟩
  | .hbm, ⟨10, _⟩ => ⟨S1x64, .f32⟩
  | .hbm, ⟨11, _⟩ => ⟨S1x64x1, .f32⟩
  | .hbm, ⟨12, _⟩ => ⟨S1x4194304x64, .f32⟩
  | .hbm, ⟨13, _⟩ => ⟨S_, .f32⟩
  | .hbm, ⟨14, _⟩ => ⟨S1x4194304x64, .f32⟩
  | .hbm, ⟨15, _⟩ => ⟨S1x4194304x64, .f32⟩
  | .hbm, ⟨16, _⟩ => ⟨S1x4194304x64, .f32⟩
  | .hbm, ⟨17, _⟩ => ⟨S1x4194304x64, .f32⟩
  | .hbm, ⟨18, _⟩ => ⟨S1x1x64, .f32⟩
  | .hbm, ⟨19, _⟩ => ⟨S1x4194304x64, .f32⟩
  | .hbm, ⟨20, _⟩ => ⟨S1x4194304x64, .f32⟩
  | .hbm, ⟨21, _⟩ => ⟨S_, .f32⟩
  | .hbm, ⟨22, _⟩ => ⟨S1x4194304x64, .f32⟩
  | .hbm, ⟨23, _⟩ => ⟨S1x4194304x64, .f32⟩
  | .hbm, ⟨24, _⟩ => ⟨S_, .f32⟩
  | .hbm, ⟨25, _⟩ => ⟨S1x4194304x64, .f32⟩
  | .hbm, ⟨26, _⟩ => ⟨S1x4194304x64, .f32⟩
  | .hbm, ⟨27, _⟩ => ⟨S1x4194304x64, .f32⟩
  | .hbm, ⟨28, _⟩ => ⟨S1x4194304x64, .f32⟩
  | .hbm, ⟨29, _⟩ => ⟨S1x4194304x1, .f32⟩
  | .hbm, ⟨30, _⟩ => ⟨S_, .f32⟩
  | .hbm, ⟨31, _⟩ => ⟨S1x4194304x1, .f32⟩
  | .hbm, ⟨32, _⟩ => ⟨S1x4194304x3, .f32⟩
  | .hbm, ⟨33, _⟩ => ⟨S1x4194304x1, .f32⟩
  | .hbm, ⟨34, _⟩ => ⟨S1x4194304x1, .f32⟩
  | .hbm, ⟨35, _⟩ => ⟨S1x2048x2048x1, .f32⟩
  | _, _ => ⟨S1x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S1x4194304x2_S1x4194304_d2 : S1x4194304x2.ReducesTo [2] S1x4194304
  h_S_ : 0 < S_.numel
  bcast_S1x4194304_S1x4194304x1_0_1 : S1x4194304.BroadcastsInDim S1x4194304x1 (![0, 1] : Fin 2 → Fin S1x4194304x1.rank)
  reducesTo_S1x64x2_S1x64_d2 : S1x64x2.ReducesTo [2] S1x64
  bcast_S1x64_S1x64x1_0_1 : S1x64.BroadcastsInDim S1x64x1 (![0, 1] : Fin 2 → Fin S1x64x1.rank)
  bcast_S_S1x4194304x64 : S_.BroadcastsInDim S1x4194304x64 (![] : Fin 0 → Fin S1x4194304x64.rank)
  bcast_S1x4194304x1_S1x4194304x64_0_1_2 : S1x4194304x1.BroadcastsInDim S1x4194304x64 (![0, 1, 2] : Fin 3 → Fin S1x4194304x64.rank)
  transposes_S1x64x1_S1x1x64_0_2_1 : S1x64x1.Transposes [0, 2, 1] S1x1x64
  bcast_S1x1x64_S1x4194304x64_0_1_2 : S1x1x64.BroadcastsInDim S1x4194304x64 (![0, 1, 2] : Fin 3 → Fin S1x4194304x64.rank)
  bcast_S_S1x4194304x1 : S_.BroadcastsInDim S1x4194304x1 (![] : Fin 0 → Fin S1x4194304x1.rank)
  concatenates_S1x4194304x2_S1x4194304x1_S1x4194304x3_d2 : Shape.Concatenates [S1x4194304x2, S1x4194304x1] S1x4194304x3 2
  shapeCasts_S1x4194304x1_S1x2048x2048x1 : S1x4194304x1.ShapeCasts S1x2048x2048x1
  dot_S1x4194304x2_S1x64x2_S1x4194304x64_2_2_1_1_0_0_wf : DotDims.WF S1x4194304x2 S1x64x2 S1x4194304x64 [2] [2] [1] [1] [0] [0]
  dot_S1x4194304x64_S1x64x1_S1x4194304x1_2_1_1_2_0_0_wf : DotDims.WF S1x4194304x64 S1x64x1 S1x4194304x1 [2] [1] [1] [2] [0] [0]
  dot_S1x4194304x3_S1x3x1_S1x4194304x1_2_1_1_2_0_0_wf : DotDims.WF S1x4194304x3 S1x3x1 S1x4194304x1 [2] [1] [1] [2] [0] [0]

variable [Facts₀]

def dot_S1x4194304x2_S1x64x2_S1x4194304x64_2_2_1_1_0_0 : DotDims S1x4194304x2 S1x64x2 S1x4194304x64 where
  lhsContracting := [2]
  rhsContracting := [2]
  lhsNonContracting := [1]
  rhsNonContracting := [1]
  lhsBatch := [0]
  rhsBatch := [0]
  wf := dot_S1x4194304x2_S1x64x2_S1x4194304x64_2_2_1_1_0_0_wf
def dot_S1x4194304x64_S1x64x1_S1x4194304x1_2_1_1_2_0_0 : DotDims S1x4194304x64 S1x64x1 S1x4194304x1 where
  lhsContracting := [2]
  rhsContracting := [1]
  lhsNonContracting := [1]
  rhsNonContracting := [2]
  lhsBatch := [0]
  rhsBatch := [0]
  wf := dot_S1x4194304x64_S1x64x1_S1x4194304x1_2_1_1_2_0_0_wf
def dot_S1x4194304x3_S1x3x1_S1x4194304x1_2_1_1_2_0_0 : DotDims S1x4194304x3 S1x3x1 S1x4194304x1 where
  lhsContracting := [2]
  rhsContracting := [1]
  lhsNonContracting := [1]
  rhsNonContracting := [2]
  lhsBatch := [0]
  rhsBatch := [0]
  wf := dot_S1x4194304x3_S1x3x1_S1x4194304x1_2_1_1_2_0_0_wf

class Facts : Prop extends Facts₀ where

variable [Facts]
-- ==== Proof.Layout.lean ====
/-
  The layout operations of the spline kernel's body, each read at explicit coordinates.

  The body works on a query block of two coordinate rows (2 x 16384: row 0 the x's, row 1 the y's of 16384 queries), the
  64 control points (64 x 2), their weights (64 x 1) and the three coefficients of the linear term (3 x 1).  It cuts rows
  and columns out of these, spreads a column along the lanes and a row along the 64 control points, sums over the control
  points, and puts the unit axis back.  Every one of these only moves elements: the lemmas below say which element of the
  operand each element of the result is.  They hold for any element type.
-/
import Idealize.ShloMosaic.Lib.Pipeline.Value
import Idealize.ShloMosaic.Lib.ValueIdx
import Idealize.ShloMosaic.PureOps.Ideal.Laws

noncomputable section

namespace Cert.Spline.Layout

open Idealize.ShloMosaic Idealize.ShloMosaic.ValueIdx

variable {α : Type}

/-- Row 0 of the query block: query `j`'s first coordinate. -/
theorem row0_apply (x : (⟨2, ![2, 16384]⟩ : Shape).Idx → α) (h : (⟨2, ![2, 16384]⟩ : Shape).Slices ![0, 0] ⟨2, ![1, 16384]⟩)
    (j : Fin 16384) : extractStridedSlice ⟨2, ![1, 16384]⟩ ![0, 0] x h (ix2 0 j) = x (ix2 0 j) :=
  extractStridedSlice_apply _ x h _ _ fun a => by
    match a with
    | ⟨0, _⟩ => rfl
    | ⟨1, _⟩ => exact (Nat.zero_add _).symm

/-- Row 1 of the query block: query `j`'s second coordinate. -/
theorem row1_apply (x : (⟨2, ![2, 16384]⟩ : Shape).Idx → α) (h : (⟨2, ![2, 16384]⟩ : Shape).Slices ![1, 0] ⟨2, ![1, 16384]⟩)
    (j : Fin 16384) : extractStridedSlice ⟨2, ![1, 16384]⟩ ![1, 0] x h (ix2 0 j) = x (ix2 1 j) :=
  extractStridedSlice_apply _ x h _ _ fun a => by
    match a with
    | ⟨0, _⟩ => rfl
    | ⟨1, _⟩ => exact (Nat.zero_add _).symm

/-- Column 0 of the control points: control point `n`'s first coordinate. -/
theorem col0_apply (x : (⟨2, ![64, 2]⟩ : Shape).Idx → α) (h : (⟨2, ![64, 2]⟩ : Shape).Slices ![0, 0] ⟨2, ![64, 1]⟩)
    (n : Fin 64) : extractStridedSlice ⟨2, ![64, 1]⟩ ![0, 0] x h (ix2 n 0) = x (ix2 n 0) :=
  extractStridedSlice_apply _ x h _ _ fun a => by
    match a with
    | ⟨0, _⟩ => exact (Nat.zero_add _).symm
    | ⟨1, _⟩ => rfl

/-- Column 1 of the control points: control point `n`'s second coordinate. -/
theorem col1_apply (x : (⟨2, ![64, 2]⟩ : Shape).Idx → α) (h : (⟨2, ![64, 2]⟩ : Shape).Slices ![0, 1] ⟨2, ![64, 1]⟩)
    (n : Fin 64) : extractStridedSlice ⟨2, ![64, 1]⟩ ![0, 1] x h (ix2 n 0) = x (ix2 n 1) :=
  extractStridedSlice_apply _ x h _ _ fun a => by
    match a with
    | ⟨0, _⟩ => exact (Nat.zero_add _).symm
    | ⟨1, _⟩ => rfl

/-- Entry `k` of the linear term's coefficient column, cut out as a 1 x 1 vector. -/
theorem coef0_apply (x : (⟨2, ![3, 1]⟩ : Shape).Idx → α) (h : (⟨2, ![3, 1]⟩ : Shape).Slices ![0, 0] ⟨2, ![1, 1]⟩) :
    extractStridedSlice ⟨2, ![1, 1]⟩ ![0, 0] x h (ix2 0 0) = x (ix2 0 0) :=
  extractStridedSlice_apply _ x h _ _ fun a => by
    match a with
    | ⟨0, _⟩ => rfl
    | ⟨1, _⟩ => rfl
theorem coef1_apply (x : (⟨2, ![3, 1]⟩ : Shape).Idx → α) (h : (⟨2, ![3, 1]⟩ : Shape).Slices ![1, 0] ⟨2, ![1, 1]⟩) :
    extractStridedSlice ⟨2, ![1, 1]⟩ ![1, 0] x h (ix2 0 0) = x (ix2 1 0) :=
  extractStridedSlice_apply _ x h _ _ fun a => by
    match a with
    | ⟨0, _⟩ => rfl
    | ⟨1, _⟩ => rfl
theorem coef2_apply (x : (⟨2, ![3, 1]⟩ : Shape).Idx → α) (h : (⟨2, ![3, 1]⟩ : Shape).Slices ![2, 0] ⟨2, ![1, 1]⟩) :
    extractStridedSlice ⟨2, ![1, 1]⟩ ![2, 0] x h (ix2 0 0) = x (ix2 2 0) :=
  extractStridedSlice_apply _ x h _ _ fun a => by
    match a with
    | ⟨0, _⟩ => rfl
    | ⟨1, _⟩ => rfl

/-- A per-control-point column spread along the lanes: at (n, j) it is the column's entry `n`. -/
theorem spread_col_apply (v : (⟨2, ![64, 1]⟩ : Shape).Idx → α) (h : (⟨2, ![64, 1]⟩ : Shape).Broadcasts ⟨2, ![64, 16384]⟩)
    (n : Fin 64) (j : Fin 16384) : broadcastTo ⟨2, ![64, 16384]⟩ v h (ix2 n j) = v (ix2 n 0) :=
  broadcastTo_apply v h _ _ fun a => by
    match a with
    | ⟨0, _⟩ => rfl
    | ⟨1, _⟩ => rfl

/-- A per-query row spread along the control points: at (n, j) it is the row's entry `j`. -/
theorem spread_row_apply (v : (⟨2, ![1, 16384]⟩ : Shape).Idx → α) (h : (⟨2, ![1, 16384]⟩ : Shape).Broadcasts ⟨2, ![64, 16384]⟩)
    (n : Fin 64) (j : Fin 16384) : broadcastTo ⟨2, ![64, 16384]⟩ v h (ix2 n j) = v (ix2 0 j) :=
  broadcastTo_apply v h _ _ fun a => by
    match a with
    | ⟨0, _⟩ => rfl
    | ⟨1, _⟩ => rfl

/-- A single number spread along the lanes. -/
theorem spread_one_apply (v : (⟨2, ![1, 1]⟩ : Shape).Idx → α) (h : (⟨2, ![1, 1]⟩ : Shape).Broadcasts ⟨2, ![1, 16384]⟩)
    (j : Fin 16384) : broadcastTo ⟨2, ![1, 16384]⟩ v h (ix2 0 j) = v (ix2 0 0) :=
  broadcastTo_apply v h _ _ fun a => by
    match a with
    | ⟨0, _⟩ => rfl
    | ⟨1, _⟩ => rfl

/-- The unit axis put back in front of a lane vector. -/
theorem lane_as_row_apply (v : (⟨1, ![16384]⟩ : Shape).Idx → α) (h : (⟨1, ![16384]⟩ : Shape).ShapeCasts ⟨2, ![1, 16384]⟩)
    (j : Fin 16384) : shapeCast ⟨2, ![1, 16384]⟩ v h (ix2 0 j) = v (ix1 j) :=
  shapeCast_apply v h _ _ (by rw [Shape.rowMajor_val_one, Shape.rowMajor_val_two]; show j.val = 0 * _ + j.val; omega)

/-- The sum over the control points, at the ideal values: at lane `j` it is the sum over `n` of the entries (n, j).
    The accumulator is the zero word, which is the neutral element the reduction starts from. -/
theorem sum_ctrl_apply (v : FVec Ideal ⟨2, ![64, 16384]⟩ .f32)
    (h : (⟨2, ![64, 16384]⟩ : Shape).Reduces [0] ⟨1, ![16384]⟩) (hφ : FKind.Formats .f32)
    (hacc : (0x00000000#32 : BitVec 32) = 0x00000000#32) (j : Fin 16384) :
    multiReduction .add [0] ⟨1, ![16384]⟩ v 0x00000000#32 h hφ hacc (ix1 j) = ∑ n : Fin 64, v (ix2 n j) := by
  refine (Ideal.multiReduction_add_single v 0x00000000#32 h hφ hacc (ix1 j)).trans ?_
  refine Finset.sum_congr rfl fun n _ => congrArg v ?_
  funext a; apply Fin.ext
  match a with
  | ⟨0, _⟩ => rfl
  | ⟨1, _⟩ => rfl

end Cert.Spline.Layout

end
-- ==== Proof.Spec.lean ====
/-
  The thin-plate spline at one query point, on the extended reals, and the two arrangements of it.

  For a query (qx, qy), control points (tx n, ty n), weights w n (n < 64) and coefficients v0, v1, v2 the value is

      sum over n of  phi (r2 n) * w n   +   (v0 * qx + v1 * qy + v2),
      r2 n = (qx*qx + qy*qy) - 2 * (tx n * qx + ty n * qy) + (tx n * tx n + ty n * ty n),
      phi r = (1/2 * r) * log (max r eps).

  The kernel computes exactly this tree of operations.  The reference computes the same tree except that each of its
  sums over the two coordinates starts from an explicit zero, its cross term has the factors of each product the other
  way round, and its linear term is a sum over three products the last of which is `1 * v2` (the query padded with a
  one).  On the extended reals addition and multiplication are commutative, zero is neutral for addition and one for
  multiplication, whatever the operands (infinite ones included), so the two arrangements are equal with no
  hypothesis on the inputs.  The three constants 2, 1/2 and eps enter both sides as the same words and are never evaluated.
-/
import Idealize.ShloMosaic.PureOps.Ideal.Laws
import Idealize.ShloMosaic.Lib.IdealHost

noncomputable section

namespace Cert.Spline

open Idealize.ShloMosaic

/-- The word of 2.0. -/
abbrev two : EReal := Ideal.ofBits .f32 0x40000000#32
/-- The word of 0.5. -/
abbrev half : EReal := Ideal.ofBits .f32 0x3F000000#32
/-- The word of the clamp 1e-10 under the logarithm. -/
abbrev eps : EReal := Ideal.ofBits .f32 0x2EDBE6FF#32

/-- The squared distance between a query and a control point, expanded as both programs expand it. -/
def r2 (qx qy tx ty : EReal) : EReal := ((qx * qx + qy * qy) - two * (tx * qx + ty * qy)) + (tx * tx + ty * ty)

/-- The order-2 radial kernel on a squared distance. -/
def phi (r : EReal) : EReal := (half * r) * Ideal.log (max r eps)

/-- The spline at one query: the weighted radial terms summed over the control points, plus the linear term. -/
def splineAt (tx ty w : Fin 64 → EReal) (v0 v1 v2 qx qy : EReal) : EReal :=
  (∑ n : Fin 64, phi (r2 qx qy (tx n) (ty n)) * w n) + ((v0 * qx + v1 * qy) + v2)

/-- The reference's squared distance: its two coordinate sums start from zero and its cross products are commuted. -/
theorem r2_of_sums (qx qy tx ty : EReal) :
    ((0 + (qx * qx + qy * qy)) - two * (qx * tx + qy * ty)) + (0 + (tx * tx + ty * ty)) = r2 qx qy tx ty := by
  unfold r2
  rw [zero_add, zero_add, mul_comm qx tx, mul_comm qy ty]

/-- The reference's linear term: the query padded with a one, times the coefficient column. -/
theorem lin_of_padded (v0 v1 v2 qx qy : EReal) :
    qx * v0 + qy * v1 + 1 * v2 = (v0 * qx + v1 * qy) + v2 := by
  rw [one_mul, mul_comm qx v0, mul_comm qy v1]

/-! ## The whole result -/

open Idealize.ShloMosaic.ValueIdx

/-- The spline at query number `q` of the argument arrays: control points `T` (1 x 64 x 2), weights `W` (1 x 64 x 1),
    coefficients `C` (1 x 3 x 1), queries `Q` (1 x 4194304 x 2). -/
def splineQuery (T : (⟨3, ![1, 64, 2]⟩ : Shape).Idx → EReal) (W : (⟨3, ![1, 64, 1]⟩ : Shape).Idx → EReal)
    (C : (⟨3, ![1, 3, 1]⟩ : Shape).Idx → EReal) (Q : (⟨3, ![1, 4194304, 2]⟩ : Shape).Idx → EReal) (q : Fin 4194304) : EReal :=
  splineAt (fun n => T (ix3 0 n 0)) (fun n => T (ix3 0 n 1)) (fun n => W (ix3 0 n 0))
    (C (ix3 0 0 0)) (C (ix3 0 1 0)) (C (ix3 0 2 0)) (Q (ix3 0 q 0)) (Q (ix3 0 q 1))

/-- The query number of a pixel of the 1 x 2048 x 2048 x 1 result: its row-major position. -/
def pixelQuery (i : (⟨4, ![1, 2048, 2048, 1]⟩ : Shape).Idx) : Fin 4194304 :=
  ⟨(i 1).val * 2048 + (i 2).val, by
    have h1 : (i 1).val < 2048 := (i 1).isLt
    have h2 : (i 2).val < 2048 := (i 2).isLt
    omega⟩

/-- THE RESULT both programs compute: at each pixel the spline at the pixel's query. -/
def splineImage (T : (⟨3, ![1, 64, 2]⟩ : Shape).Idx → EReal) (W : (⟨3, ![1, 64, 1]⟩ : Shape).Idx → EReal)
    (C : (⟨3, ![1, 3, 1]⟩ : Shape).Idx → EReal) (Q : (⟨3, ![1, 4194304, 2]⟩ : Shape).Idx → EReal) :
    (⟨4, ![1, 2048, 2048, 1]⟩ : Shape).Idx → EReal :=
  fun i => splineQuery T W C Q (pixelQuery i)

end Cert.Spline

end
-- ==== Proof.KernelLane.lean ====
/-
  What the spline kernel's body stores, lane by lane.

  At a grid point the body loads the query block `x0` (2 x 16384), the control points `x1` (64 x 2), the weights `x2`
  (64 x 1) and the coefficients `x3` (3 x 1) whole, and stores one row of 16384 results.  Lane `j` of that row is the
  spline (`Cert.Spline.splineAt`) at the query `(x0[0, j], x0[1, j])`, with the control points, weights and
  coefficients read off `x1`, `x2`, `x3`: every operation of the body is elementwise except the cuts, the spreads and
  the sum over the 64 control points, which `Cert.Spline.Layout` reads at coordinates.
-/
import proofs.«112981_j14087492731389_1_alg».proof.Proof.Gen.KernelIdeal.Frame
import proofs.«112981_j14087492731389_1_alg».proof.Proof.Layout
import proofs.«112981_j14087492731389_1_alg».proof.Proof.Spec

noncomputable section

namespace Cert.KernelIdeal.Lane

open Cert.KernelIdeal Cert.KernelIdeal.Gen Idealize.ShloMosaic Idealize.ShloMosaic.ValueIdx
open Cert.Spline Cert.Spline.Layout

/-- Offsets `[0, 0]` are the zero offsets. -/
theorem zero_offsets : (![0, 0] : Fin 2 → Nat) = fun _ => 0 := funext fun a => by fin_cases a <;> rfl

/-- The elementwise logarithm at an index. -/
theorem log_apply {s : Shape} {φ : FTy} (a : FVec Ideal s φ) (i : s.Idx) : log a i = Ideal.log (a i) := rfl

/-- Lane `j` of the row the body stores is the spline at query `j` of the block. -/
theorem stored_apply (x0 : Vec Ideal S2x16384 .f32) (x1 : Vec Ideal S64x2 .f32) (x2 : Vec Ideal S64x1 .f32)
    (x3 : Vec Ideal S3x1 .f32) (j : Fin 16384) :
    out0_4 x0 x1 x2 x3 (ix2 0 j)
      = splineAt (fun n => x1 (ix2 n 0)) (fun n => x1 (ix2 n 1)) (fun n => x2 (ix2 n 0))
          (x3 (ix2 0 0)) (x3 (ix2 1 0)) (x3 (ix2 2 0)) (x0 (ix2 0 j)) (x0 (ix2 1 j)) := by
  unfold out0_4
  rw [View.canon_unit_zero zero_offsets]
  simp only [View.ld_unit_zero (S := S2x16384) zero_offsets, View.ld_unit_zero (S := S64x2) zero_offsets,
    View.ld_unit_zero (S := S64x1) zero_offsets, View.ld_unit_zero (S := S3x1) zero_offsets]
  unfold k0_pay1 k0_pay6 k0_pay7 k0_pay8 k0_pay3 k0_pay4 k0_pay5 k0_pay2
  -- everything outside the sum over the control points: the final additions, the unit axis, the linear term
  simp only [addf_apply, mulf_apply, shapeCast_self, row0_apply, row1_apply, coef0_apply, coef1_apply, coef2_apply,
    spread_one_apply, lane_as_row_apply]
  unfold splineAt
  -- the sum over the control points, then its summand at control point `n`, lane `j`
  refine congrArg₂ (· + ·) ((sum_ctrl_apply _ _ _ _ j).trans (Finset.sum_congr rfl fun n _ => ?_)) rfl
  simp only [addf_apply, mulf_apply, subf_apply, maximumf_apply, log_apply, broadcast_apply, shapeCast_self,
    row0_apply, row1_apply, col0_apply, col1_apply, spread_col_apply, spread_row_apply]
  rfl

end Cert.KernelIdeal.Lane

end
-- ==== Proof.KernelWhole.lean ====
/-
  The spline kernel's whole run, read as one function of the arguments.

  Before the region the host drops the leading unit axis of the control points (64 x 2), the weights (64 x 1) and the
  coefficients (3 x 1), and lays the queries out as two rows of 4194304 (row 0 the x's, row 1 the y's).  The grid has 256
  points; point `t` is handed the columns `16384 t ... 16384 t + 16383` of the query rows and all of the three small
  arrays, and writes the 16384 entries of the same columns of a single output row.  By the per-lane lemma
  (`Cert.KernelIdeal.Lane.stored_apply`) entry `q` of the output row is therefore the spline at query `q` of the
  ARGUMENT arrays (`rowResult`); the 256 tiles cover the row (entry `q` lies in tile `q / 16384`), so the row is
  `rowResult` everywhere.  After the region the host reads the row as a 1 x 2048 x 2048 x 1 image in row-major order:
  pixel `(0, a, b, 0)` is entry `2048 a + b`, which is `Cert.Spline.splineImage`.
-/
import proofs.«112981_j14087492731389_1_alg».proof.Proof.Gen.KernelIdeal.Frame
import proofs.«112981_j14087492731389_1_alg».proof.Proof.KernelLane
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo
open Cert.Spline Cert.KernelIdeal.Lane

variable (m : (ℓ : Loc nD τ sig) → Buf (Elt Ideal) ℓ) (ρ : Dev nD → PrngReg)

/-- The four argument arrays on core `c`, at their literal types. -/
abbrev ctrlArg (c : Dev nD) : Vec Ideal S1x64x2 .f32 := m ((c : Thread nD τ).loc main_arg0)
abbrev wgtArg (c : Dev nD) : Vec Ideal S1x64x1 .f32 := m ((c : Thread nD τ).loc main_arg1)
abbrev coefArg (c : Dev nD) : Vec Ideal S1x3x1 .f32 := m ((c : Thread nD τ).loc main_arg2)
abbrev queryArg (c : Dev nD) : Vec Ideal S1x4194304x2 .f32 := m ((c : Thread nD τ).loc main_arg3)

/-- The region finds the queries transposed: two rows of 4194304. -/
theorem entry_queries (c : Dev nD) : (V m c main_v4 : S2x4194304.Idx → EReal)
    = transpose S2x4194304 [1, 0] (shapeCast S4194304x2 (queryArg m c) shapeCasts_S1x4194304x2_S4194304x2) transposes_S4194304x2_S2x4194304_1_0 := by
  show StableHlo.after hostOps0 (fun b => m (c, b)) (Proc.devRef .tc main_v4) = _
  after_results; rfl

/-- The region finds the control points, the weights and the coefficients with the leading unit axis dropped. -/
theorem entry_ctrl (c : Dev nD) : (V m c main_v0 : S64x2.Idx → EReal) = shapeCast S64x2 (ctrlArg m c) shapeCasts_S1x64x2_S64x2 := by
  show StableHlo.after hostOps0 (fun b => m (c, b)) (Proc.devRef .tc main_v0) = _
  after_results; rfl

theorem entry_wgt (c : Dev nD) : (V m c main_v1 : S64x1.Idx → EReal) = shapeCast S64x1 (wgtArg m c) shapeCasts_S1x64x1_S64x1 := by
  show StableHlo.after hostOps0 (fun b => m (c, b)) (Proc.devRef .tc main_v1) = _
  after_results; rfl

theorem entry_coef (c : Dev nD) : (V m c main_v2 : S3x1.Idx → EReal) = shapeCast S3x1 (coefArg m c) shapeCasts_S1x3x1_S3x1 := by
  show StableHlo.after hostOps0 (fun b => m (c, b)) (Proc.devRef .tc main_v2) = _
  after_results; rfl

/-! ## The region-entry contents at coordinates -/

/-- Row `r`, column `q` of the transposed queries is coordinate `r` of query `q`. -/
theorem entry_queries_apply (c : Dev nD) (r : Fin 2) (q : Fin 4194304) :
    V m c main_v4 (ix2 r q) = queryArg m c (ix3 0 q r) := by
  refine (congrFun (entry_queries m c) (ix2 r q)).trans ?_
  refine (transpose_apply [1, 0] _ _ (ix2 r q) (ix2 q r) (fun b => by match b with | ⟨0, _⟩ => rfl | ⟨1, _⟩ => rfl)).trans ?_
  exact shapeCast_apply _ _ (ix2 q r) (ix3 0 q r) (by
    rw [Shape.rowMajor_val_three, Shape.rowMajor_val_two]
    show (0 * 4194304 + q.val) * 2 + r.val = q.val * 2 + r.val; omega)

/-- Dropping the leading unit axis keeps each entry at the same remaining coordinates. -/
theorem entry_ctrl_apply (c : Dev nD) (n : Fin 64) (d : Fin 2) : V m c main_v0 (ix2 n d) = ctrlArg m c (ix3 0 n d) := by
  refine (congrFun (entry_ctrl m c) (ix2 n d)).trans ?_
  exact shapeCast_apply _ _ (ix2 n d) (ix3 0 n d) (by
    rw [Shape.rowMajor_val_three, Shape.rowMajor_val_two]
    show (0 * 64 + n.val) * 2 + d.val = n.val * 2 + d.val; omega)

theorem entry_wgt_apply (c : Dev nD) (n : Fin 64) : V m c main_v1 (ix2 n 0) = wgtArg m c (ix3 0 n 0) := by
  refine (congrFun (entry_wgt m c) (ix2 n 0)).trans ?_
  exact shapeCast_apply _ _ (ix2 n 0) (ix3 0 n 0) (by
    rw [Shape.rowMajor_val_three, Shape.rowMajor_val_two]
    show (0 * 64 + n.val) * 1 + 0 = n.val * 1 + 0; omega)

theorem entry_coef_apply (c : Dev nD) (k : Fin 3) : V m c main_v2 (ix2 k 0) = coefArg m c (ix3 0 k 0) := by
  refine (congrFun (entry_coef m c) (ix2 k 0)).trans ?_
  exact shapeCast_apply _ _ (ix2 k 0) (ix3 0 k 0) (by
    rw [Shape.rowMajor_val_three, Shape.rowMajor_val_two]
    show (0 * 3 + k.val) * 1 + 0 = k.val * 1 + 0; omega)

/-! ## The index maps over the grid -/

/-- The windows' block indices, decided over the 256 grid points: the query rows and the output row move with the point along the lanes; the three small arrays are fetched whole. -/
theorem block_indices : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- A grid point's number is below 256. -/
theorem point_lt (t : Fin cfg0.N) : t.val < 256 := by
  exact lt_of_lt_of_eq t.isLt N_0

/-- Query number of lane `j` of grid point `t`'s tile. -/
def tileQuery (t : Fin cfg0.N) (j : Fin 16384) : Fin 4194304 :=
  ⟨t.val * 16384 + j.val, by have := point_lt t; have := j.isLt; omega⟩

/-- Where an index of a point's block sits in its array: the tile's lane `j` is column `16384 t + j`; the small arrays' blocks are the arrays. -/
theorem query_emb (t : Fin cfg0.N) (r : Fin 2) (j : Fin 16384) :
    ((cfg0.win 0).blk t).view.emb (ix2 r j) = ix2 r (tileQuery t j) := by
  obtain ⟨e00, e01, -⟩ := block_indices t
  funext a; apply Fin.ext
  match a with
  | ⟨0, _⟩ => show win0_0.index t (0 : Fin 2) * 2 + 1 * r.val = r.val; omega
  | ⟨1, _⟩ => show win0_0.index t (1 : Fin 2) * 16384 + 1 * j.val = t.val * 16384 + j.val; omega

theorem out_emb (t : Fin cfg0.N) (j : Fin 16384) :
    ((cfg0.win 4).blk t).view.emb (ix2 0 j) = ix2 0 (tileQuery t j) := by
  obtain ⟨-, -, -, -, -, -, -, -, e40, e41⟩ := block_indices t
  funext a; apply Fin.ext
  match a with
  | ⟨0, _⟩ => show win0_4.index t (0 : Fin 2) * 1 + 1 * 0 = 0; omega
  | ⟨1, _⟩ => show win0_4.index t (1 : Fin 2) * 16384 + 1 * j.val = t.val * 16384 + j.val; omega

theorem ctrl_emb (t : Fin cfg0.N) (n : Fin 64) (d : Fin 2) : ((cfg0.win 1).blk t).view.emb (ix2 n d) = ix2 n d := by
  obtain ⟨-, -, e10, e11, -⟩ := block_indices t
  funext a; apply Fin.ext
  match a with
  | ⟨0, _⟩ => show win0_1.index t (0 : Fin 2) * 64 + 1 * n.val = n.val; omega
  | ⟨1, _⟩ => show win0_1.index t (1 : Fin 2) * 2 + 1 * d.val = d.val; omega

theorem wgt_emb (t : Fin cfg0.N) (n : Fin 64) : ((cfg0.win 2).blk t).view.emb (ix2 n 0) = ix2 n 0 := by
  obtain ⟨-, -, -, -, e20, e21, -⟩ := block_indices t
  funext a; apply Fin.ext
  match a with
  | ⟨0, _⟩ => show win0_2.index t (0 : Fin 2) * 64 + 1 * n.val = n.val; omega
  | ⟨1, _⟩ => show win0_2.index t (1 : Fin 2) * 1 + 1 * 0 = 0; omega

theorem coef_emb (t : Fin cfg0.N) (k : Fin 3) : ((cfg0.win 3).blk t).view.emb (ix2 k 0) = ix2 k 0 := by
  obtain ⟨-, -, -, -, -, -, e30, e31, -⟩ := block_indices t
  funext a; apply Fin.ext
  match a with
  | ⟨0, _⟩ => show win0_3.index t (0 : Fin 2) * 3 + 1 * k.val = k.val; omega
  | ⟨1, _⟩ => show win0_3.index t (1 : Fin 2) * 1 + 1 * 0 = 0; omega

/-! ## Each window's block at a point, at coordinates -/

/-- The blocks the body loads at point `t`, read at coordinates as entries of the argument arrays. -/
theorem query_block_apply (c : Dev nD) (t : Fin cfg0.N) (r : Fin 2) (j : Fin 16384) :
    iblk m c 0 t (ix2 r j) = queryArg m c (ix3 0 (tileQuery t j) r) := by
  show V m c main_v4 (((cfg0.win 0).blk t).view.emb (ix2 r j)) = _
  rw [query_emb]
  exact entry_queries_apply m c r _

theorem ctrl_block_apply (c : Dev nD) (t : Fin cfg0.N) (n : Fin 64) (d : Fin 2) :
    iblk m c 1 t (ix2 n d) = ctrlArg m c (ix3 0 n d) := by
  show V m c main_v0 (((cfg0.win 1).blk t).view.emb (ix2 n d)) = _
  rw [ctrl_emb]
  exact entry_ctrl_apply m c n d

theorem wgt_block_apply (c : Dev nD) (t : Fin cfg0.N) (n : Fin 64) :
    iblk m c 2 t (ix2 n 0) = wgtArg m c (ix3 0 n 0) := by
  show V m c main_v1 (((cfg0.win 2).blk t).view.emb (ix2 n 0)) = _
  rw [wgt_emb]
  exact entry_wgt_apply m c n

theorem coef_block_apply (c : Dev nD) (t : Fin cfg0.N) (k : Fin 3) :
    iblk m c 3 t (ix2 k 0) = coefArg m c (ix3 0 k 0) := by
  show V m c main_v2 (((cfg0.win 3).blk t).view.emb (ix2 k 0)) = _
  rw [coef_emb]
  exact entry_coef_apply m c k

/-! ## What a point writes back -/

/-- The region's output array as one function of the arguments: entry `q` of its one row is the spline at query `q`. -/
def rowResult (c : Dev nD) : Vec Ideal S1x4194304 .f32 :=
  fun i => splineQuery (ctrlArg m c) (wgtArg m c) (coefArg m c) (queryArg m c) (i 1)

/-- WHAT POINT `t` WRITES BACK is its tile of `rowResult`: lane `j` is the spline at query `16384 t + j`. -/
theorem flushed_eq (c : Dev nD) (t : Fin cfg0.N) :
    (dats m 0 c).flushed 4 t = ((cfg0.win 4).blk t).view.read (Elt Ideal) (rowResult m c) := by
  show (cfg0.win 4).cut (grid0.coords t) ((dats m 0 c).after 4 t) = _
  rw [after0_4]
  funext y
  obtain ⟨j, rfl⟩ : ∃ j : Fin 16384, y = ix2 0 j :=
    ⟨y 1, funext fun a => by
      match a with
      | ⟨0, _⟩ =>
        have h0 : (y 0).val < 1 := (y 0).isLt
        exact Fin.ext (show (y 0).val = 0 by omega)
      | ⟨1, _⟩ => rfl⟩
  show out0_4 (iblk m c 0 t) (iblk m c 1 t) (iblk m c 2 t) (iblk m c 3 t) (ix2 0 j)
    = rowResult m c (((cfg0.win 4).blk t).view.emb (ix2 0 j))
  rw [out_emb]
  refine (stored_apply (iblk m c 0 t) (iblk m c 1 t) (iblk m c 2 t) (iblk m c 3 t) j).trans ?_
  simp only [query_block_apply, ctrl_block_apply, wgt_block_apply, coef_block_apply]
  rfl

/-! ## The tiles cover the output row -/

/-- An index of the output row is in point `t`'s tile iff each coordinate is in the tile's range. -/
theorem mem_out_block (t : Fin cfg0.N) (i : S1x4194304.Idx) :
    i ∈ ((cfg0.win 4).blk t).view.set ↔ ∀ a : Fin 2, win0_4.index t a * S1x16384.size a ≤ (i a).val
      ∧ (i a).val < win0_4.index t a * S1x16384.size a + S1x16384.size a := by
  show i ∈ ((View.whole main_v5).slice (win0_4.rect t)).set ↔ _
  rw [View.set_slice_whole, Rect.mem_set_unit]
  exact Iff.rfl

/-- Entry `q` of the output row is in the tile of point `q / 16384`. -/
theorem covered (i : S1x4194304.Idx) :
    ∃ t : Fin cfg0.N, (cfg0.win 4).flush t = true ∧ i ∈ ((cfg0.win 4).blk t).view.set := by
  have h0 : (i 0).val < 1 := (i 0).isLt
  have h1 : (i 1).val < 4194304 := (i 1).isLt
  have hN : (i 1).val / 16384 < cfg0.N := lt_of_lt_of_eq (show (i 1).val / 16384 < 256 by omega) N_0.symm
  obtain ⟨-, -, -, -, -, -, -, -, e40, e41⟩ := block_indices ⟨(i 1).val / 16384, hN⟩
  have e41' : win0_4.index ⟨(i 1).val / 16384, hN⟩ (1 : Fin 2) = (i 1).val / 16384 := e41
  refine ⟨⟨(i 1).val / 16384, hN⟩, flush0_4 _, ?_⟩
  rw [mem_out_block]
  intro a
  match a with
  | ⟨0, _⟩ =>
    show win0_4.index ⟨(i 1).val / 16384, hN⟩ (0 : Fin 2) * 1 ≤ (i 0).val
      ∧ (i 0).val < win0_4.index ⟨(i 1).val / 16384, hN⟩ (0 : Fin 2) * 1 + 1
    omega
  | ⟨1, _⟩ =>
    show win0_4.index ⟨(i 1).val / 16384, hN⟩ (1 : Fin 2) * 16384 ≤ (i 1).val
      ∧ (i 1).val < win0_4.index ⟨(i 1).val / 16384, hN⟩ (1 : Fin 2) * 16384 + 16384
    omega

/-- The region's output array after the run. -/
theorem final (c : Dev nD) : (dats m 0 c).arrAt 4 cfg0.N = rowResult m c :=
  (dats m 0 c).arrAt_eq_of_cover 4 (rowResult m c) (fun t _ => flushed_eq m c t) covered

/-! ## The reshape after the region, and the run -/

/-- The reshape after the region reads the row as the image in row-major order: pixel (0, a, b, 0) is entry 2048 a + b. -/
theorem result_eq (c : Dev nD) :
    Pipeline.afterTail₀ cfgs (dats m) 0 (V0 m) [hostOps1] c main_v6
      = splineImage (ctrlArg m c) (wgtArg m c) (coefArg m c) (queryArg m c) := by
  unfold Pipeline.afterTail₀
  show StableHlo.after hostOps1 _ (Proc.devRef .tc main_v6) = _
  after_results
  funext i
  show shapeCast S1x2048x2048x1 (Pipeline.withArrays spec0 c (V0 m c) (fun w => (dats m 0 c).arrAt w cfg0.N)
      (Proc.devRef .tc main_v5)) shapeCasts_S1x4194304_S1x2048x2048x1 i = _
  have hrow : Pipeline.withArrays spec0 c (V0 m c) (fun w => (dats m 0 c).arrAt w cfg0.N)
      (Proc.devRef .tc (Pipeline.arrRef spec0 4)) = rowResult m c :=
    (Pipeline.withArrays_arr spec0 launch0.win.arr_inj c _ _ 4).trans (final m c)
  refine (shapeCast_apply _ shapeCasts_S1x4194304_S1x2048x2048x1 i (ix2 0 (pixelQuery i)) ?_).trans ?_
  · have h0 : (i 0).val < 1 := (i 0).isLt
    have h1 : (i 1).val < 2048 := (i 1).isLt
    have h2 : (i 2).val < 2048 := (i 2).isLt
    have h3 : (i 3).val < 1 := (i 3).isLt
    rw [Shape.rowMajor_val_two, Shape.rowMajor_val_four]
    show 0 * 4194304 + ((i 1).val * 2048 + (i 2).val) = (((i 0).val * 2048 + (i 1).val) * 2048 + (i 2).val) * 1 + (i 3).val
    omega
  · exact congrFun hrow (ix2 0 (pixelQuery i))

/-- THE KERNEL'S RUN, READ: every execution ends with the result at the spline image of the arguments, which are
    unchanged. -/
theorem run : θ_run defs (onTc (τ := τ) (main (F := Ideal))) ⟨m, fun _ => 0, ρ⟩ fun r => ∀ c : Dev nD,
      r.2.mem ((c.tc : Thread nD τ).loc main_v6) = splineImage (ctrlArg m c) (wgtArg m c) (coefArg m c) (queryArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefStages.lean ====
/-
  The reference program computes the spline image.

  The reference works on arrays indexed (batch, query, control point): the squared norms of the queries and of the
  control points as sums over the two coordinates (each started from zero), the cross term as a matrix product over the
  coordinate, the squared distance, the radial kernel, the weighted sum as a matrix product over the control points, and
  the linear term as a matrix product of the query padded with a one against the coefficient column.  Each stage is read
  here at explicit coordinates; the last lemma puts them together: at every pixel the reference's result is
  `Cert.Spline.splineImage`, the same function of the arguments as the kernel's.
-/
import proofs.«112981_j14087492731389_1_alg».proof.Proof.Gen.ReferenceIdeal.Read
import proofs.«112981_j14087492731389_1_alg».proof.Proof.Spec

noncomputable section

namespace Cert.ReferenceIdeal.Stages

open Cert.ReferenceIdeal Cert.ReferenceIdeal.Gen Cert.ReferenceIdeal.Read
open Idealize.ShloMosaic Idealize.ShloMosaic.ValueIdx Cert.Spline

variable (x0 : Vec Ideal S1x64x2 .f32) (x1 : Vec Ideal S1x64x1 .f32) (x2 : Vec Ideal S1x3x1 .f32)
  (x3 : Vec Ideal S1x4194304x2 .f32)

/-- The squared norm of query `q`: zero plus the two squares. -/
theorem qnorm_apply (q : Fin 4194304) :
    val_main_v1 (F := Ideal) x3 (ix2 0 q)
      = 0 + (x3 (ix3 0 q 0) * x3 (ix3 0 q 0) + x3 (ix3 0 q 1) * x3 (ix3 0 q 1)) := by
  rw [val_main_v1_apply, Fin.sum_univ_two, val_main_v0_apply, val_main_v0_apply, val_main_cst_apply]
  have e0 : idx_main_v1 (ix2 0 q) 0 = ix3 0 q 0 := funext fun a => Fin.ext (by match a with | ⟨0, _⟩ => rfl | ⟨1, _⟩ => rfl | ⟨2, _⟩ => rfl)
  have e1 : idx_main_v1 (ix2 0 q) 1 = ix3 0 q 1 := funext fun a => Fin.ext (by match a with | ⟨0, _⟩ => rfl | ⟨1, _⟩ => rfl | ⟨2, _⟩ => rfl)
  rw [e0, e1]
  simp only [Ideal.ofBits_def, Ideal.mulf_def, Ideal.ofBits_zero_f32]

/-- The squared norm of control point `n`. -/
theorem tnorm_apply (n : Fin 64) :
    val_main_v4 (F := Ideal) x0 (ix2 0 n)
      = 0 + (x0 (ix3 0 n 0) * x0 (ix3 0 n 0) + x0 (ix3 0 n 1) * x0 (ix3 0 n 1)) := by
  rw [val_main_v4_apply, Fin.sum_univ_two, val_main_v3_apply, val_main_v3_apply, val_main_cst_0_apply]
  have e0 : idx_main_v4 (ix2 0 n) 0 = ix3 0 n 0 := funext fun a => Fin.ext (by match a with | ⟨0, _⟩ => rfl | ⟨1, _⟩ => rfl | ⟨2, _⟩ => rfl)
  have e1 : idx_main_v4 (ix2 0 n) 1 = ix3 0 n 1 := funext fun a => Fin.ext (by match a with | ⟨0, _⟩ => rfl | ⟨1, _⟩ => rfl | ⟨2, _⟩ => rfl)
  rw [e0, e1]
  simp only [Ideal.ofBits_def, Ideal.mulf_def, Ideal.ofBits_zero_f32]

/-- The cross term of query `q` and control point `n`: the product over the coordinate. -/
theorem cross_apply (q : Fin 4194304) (n : Fin 64) :
    val_main_v6 (F := Ideal) x0 x3 (ix3 0 q n)
      = x3 (ix3 0 q 0) * x0 (ix3 0 n 0) + x3 (ix3 0 q 1) * x0 (ix3 0 n 1) := by
  rw [val_main_v6_apply, Fin.sum_univ_two]
  have l0 : lidx_main_v6 (ix3 0 q n) 0 = ix3 0 q 0 := funext fun a => Fin.ext (by match a with | ⟨0, _⟩ => rfl | ⟨1, _⟩ => rfl | ⟨2, _⟩ => rfl)
  have l1 : lidx_main_v6 (ix3 0 q n) 1 = ix3 0 q 1 := funext fun a => Fin.ext (by match a with | ⟨0, _⟩ => rfl | ⟨1, _⟩ => rfl | ⟨2, _⟩ => rfl)
  have r0 : ridx_main_v6 (ix3 0 q n) 0 = ix3 0 n 0 := funext fun a => Fin.ext (by match a with | ⟨0, _⟩ => rfl | ⟨1, _⟩ => rfl | ⟨2, _⟩ => rfl)
  have r1 : ridx_main_v6 (ix3 0 q n) 1 = ix3 0 n 1 := funext fun a => Fin.ext (by match a with | ⟨0, _⟩ => rfl | ⟨1, _⟩ => rfl | ⟨2, _⟩ => rfl)
  rw [l0, l1, r0, r1]

/-- The squared distance between query `q` and control point `n`. -/
theorem dist_apply (q : Fin 4194304) (n : Fin 64) :
    val_main_v13 (F := Ideal) x0 x3 (ix3 0 q n)
      = r2 (x3 (ix3 0 q 0)) (x3 (ix3 0 q 1)) (x0 (ix3 0 n 0)) (x0 (ix3 0 n 1)) := by
  rw [val_main_v13_apply, val_main_v10_apply, val_main_v9_apply, val_main_v2_apply, val_main_v8_apply, val_main_v7_apply,
    val_main_cst_1_apply, val_main_v12_apply, val_main_v11_apply, val_main_v5_apply, cross_apply]
  have eq : idx_main_v2 (idx_main_v9 (ix3 0 q n)) = ix2 0 q := funext fun a => Fin.ext (by match a with | ⟨0, _⟩ => rfl | ⟨1, _⟩ => rfl)
  have et : idx_main_v5 (idx_main_v11 (idx_main_v12 (ix3 0 q n))) = ix2 0 n := funext fun a => Fin.ext (by match a with | ⟨0, _⟩ => rfl | ⟨1, _⟩ => rfl)
  rw [eq, et, qnorm_apply, tnorm_apply]
  simp only [Ideal.ofBits_def, Ideal.mulf_def, Ideal.addf_def, Ideal.subf_def]
  exact r2_of_sums _ _ _ _

/-- The radial kernel of that squared distance. -/
theorem radial_apply (q : Fin 4194304) (n : Fin 64) :
    val_main_v19 (F := Ideal) x0 x3 (ix3 0 q n)
      = phi (r2 (x3 (ix3 0 q 0)) (x3 (ix3 0 q 1)) (x0 (ix3 0 n 0)) (x0 (ix3 0 n 1))) := by
  rw [val_main_v19_apply, val_main_v15_apply, val_main_v14_apply, val_main_cst_2_apply, val_main_v18_apply,
    val_main_v17_apply, val_main_v16_apply, val_main_cst_3_apply, dist_apply]
  simp only [Ideal.ofBits_def, Ideal.mulf_def, Ideal.maximumf_def, Ideal.hostUnary_log_def]
  rfl

/-- The weighted sum of the radial terms over the control points. -/
theorem rbf_apply (q : Fin 4194304) :
    val_main_v20 (F := Ideal) x0 x1 x3 (ix3 0 q 0)
      = ∑ n : Fin 64, phi (r2 (x3 (ix3 0 q 0)) (x3 (ix3 0 q 1)) (x0 (ix3 0 n 0)) (x0 (ix3 0 n 1))) * x1 (ix3 0 n 0) := by
  rw [val_main_v20_apply]
  refine Finset.sum_congr rfl fun n _ => ?_
  have l : lidx_main_v20 (ix3 0 q 0) n = ix3 0 q n := funext fun a => Fin.ext (by match a with | ⟨0, _⟩ => rfl | ⟨1, _⟩ => rfl | ⟨2, _⟩ => rfl)
  have r : ridx_main_v20 (ix3 0 q 0) n = ix3 0 n 0 := funext fun a => Fin.ext (by match a with | ⟨0, _⟩ => rfl | ⟨1, _⟩ => rfl | ⟨2, _⟩ => rfl)
  rw [l, r, radial_apply]

/-- The query padded with a one, entry by entry: its two coordinates, then one. -/
theorem padded_x (q : Fin 4194304) : val_main_v22 (F := Ideal) x3 (ix3 0 q 0) = x3 (ix3 0 q 0) := by
  unfold val_main_v22
  exact concatenate_pair_apply_left 2 x3 _ concatenates_S1x4194304x2_S1x4194304x1_S1x4194304x3_d2 (ix3 0 q 0) rfl (ix3 0 q 0)
    (fun a => by match a with | ⟨0, _⟩ => rfl | ⟨1, _⟩ => rfl | ⟨2, _⟩ => rfl)
theorem padded_y (q : Fin 4194304) : val_main_v22 (F := Ideal) x3 (ix3 0 q 1) = x3 (ix3 0 q 1) := by
  unfold val_main_v22
  exact concatenate_pair_apply_left 2 x3 _ concatenates_S1x4194304x2_S1x4194304x1_S1x4194304x3_d2 (ix3 0 q 1) rfl (ix3 0 q 1)
    (fun a => by match a with | ⟨0, _⟩ => rfl | ⟨1, _⟩ => rfl | ⟨2, _⟩ => rfl)
theorem padded_one (q : Fin 4194304) : val_main_v22 (F := Ideal) x3 (ix3 0 q 2) = 1 := by
  unfold val_main_v22
  refine (concatenate_pair_apply_right 2 x3 _ concatenates_S1x4194304x2_S1x4194304x1_S1x4194304x3_d2 (ix3 0 q 2) rfl rfl (ix3 0 q 0)
    (fun a ha => by
      match a with
      | ⟨0, _⟩ => rfl
      | ⟨1, _⟩ => rfl
      | ⟨2, _⟩ => exact absurd rfl ha) rfl).trans ?_
  rw [val_main_v21_apply, val_main_cst_4_apply]
  simp only [Ideal.ofBits_def, Ideal.ofBits_one_f32]

/-- The linear term at query `q`: the padded query against the coefficient column. -/
theorem lin_apply (q : Fin 4194304) :
    val_main_v23 (F := Ideal) x2 x3 (ix3 0 q 0)
      = (x2 (ix3 0 0 0) * x3 (ix3 0 q 0) + x2 (ix3 0 1 0) * x3 (ix3 0 q 1)) + x2 (ix3 0 2 0) := by
  rw [val_main_v23_apply, Fin.sum_univ_three]
  have l0 : lidx_main_v23 (ix3 0 q 0) 0 = ix3 0 q 0 := funext fun a => Fin.ext (by match a with | ⟨0, _⟩ => rfl | ⟨1, _⟩ => rfl | ⟨2, _⟩ => rfl)
  have l1 : lidx_main_v23 (ix3 0 q 0) 1 = ix3 0 q 1 := funext fun a => Fin.ext (by match a with | ⟨0, _⟩ => rfl | ⟨1, _⟩ => rfl | ⟨2, _⟩ => rfl)
  have l2 : lidx_main_v23 (ix3 0 q 0) 2 = ix3 0 q 2 := funext fun a => Fin.ext (by match a with | ⟨0, _⟩ => rfl | ⟨1, _⟩ => rfl | ⟨2, _⟩ => rfl)
  have c0 : ridx_main_v23 (ix3 0 q 0) 0 = ix3 0 0 0 := funext fun a => Fin.ext (by match a with | ⟨0, _⟩ => rfl | ⟨1, _⟩ => rfl | ⟨2, _⟩ => rfl)
  have c1 : ridx_main_v23 (ix3 0 q 0) 1 = ix3 0 1 0 := funext fun a => Fin.ext (by match a with | ⟨0, _⟩ => rfl | ⟨1, _⟩ => rfl | ⟨2, _⟩ => rfl)
  have c2 : ridx_main_v23 (ix3 0 q 0) 2 = ix3 0 2 0 := funext fun a => Fin.ext (by match a with | ⟨0, _⟩ => rfl | ⟨1, _⟩ => rfl | ⟨2, _⟩ => rfl)
  rw [l0, l1, l2, c0, c1, c2, padded_x, padded_y, padded_one]
  exact lin_of_padded _ _ _ _ _

/-- THE REFERENCE'S RESULT is the spline image of its arguments. -/
theorem image_eq : val_main_v25 (F := Ideal) x0 x1 x2 x3 = splineImage x0 x1 x2 x3 := by
  funext i
  rw [val_main_v25_apply, val_main_v24_apply]
  have e : idx_main_v25 i = ix3 0 (pixelQuery i) 0 := funext fun a => Fin.ext (by
    match a with
    | ⟨0, _⟩ => rfl
    | ⟨1, _⟩ =>
      have h0 : (i 0).val < 1 := (i 0).isLt
      have h1 : (i 1).val < 2048 := (i 1).isLt
      have h2 : (i 2).val < 2048 := (i 2).isLt
      have h3 : (i 3).val < 1 := (i 3).isLt
      show ((((i 0).val * 2048 + (i 1).val) * 2048 + (i 2).val) * 1 + (i 3).val) / 1 % 4194304 = (i 1).val * 2048 + (i 2).val
      omega
    | ⟨2, _⟩ => rfl)
  rw [e, rbf_apply, lin_apply]
  rfl

end Cert.ReferenceIdeal.Stages

end
-- ==== Proof.lean ====
/-
  The thin-plate spline kernel computes what its reference computes.

  Both programs evaluate, at each of the 2048 x 2048 query points (qx, qy),

      sum over the 64 control points n of  phi (r2 n) * w n   +   (v0 * qx + v1 * qy + v2),
      r2 n = |q|^2 - 2 <t n, q> + |t n|^2,     phi r = (1/2 * r) * log (max r eps),

  on the extended reals.  The kernel tiles the queries along the lanes (256 tiles of 16384 queries, the two coordinates
  as two rows) and evaluates this tree of operations elementwise, summing over the control points along the sublanes;
  the reference forms the squared norms, the cross term, the weighted sum and the linear term as sums and matrix
  products over arrays indexed (batch, query, control point), padding the query with a one for the linear term.  The two
  differ only by the order of the factors in some products, by explicit zeros at the start of sums and by a factor one:
  commutativity and the two neutral elements, which hold for all extended reals, so the inputs' finiteness is never used.
  Both results are `Cert.Spline.splineImage` of the arguments (Proof/KernelWhole.lean, Proof/RefStages.lean).
  No operation of the kernel is replaced in its idealization: it is the kernel's own text read over the extended reals.
-/
import proofs.«112981_j14087492731389_1_alg».proof.Defs
import proofs.«112981_j14087492731389_1_alg».proof.Proof.Gen.Kernel
import proofs.«112981_j14087492731389_1_alg».proof.Proof.Gen.Kernel.Skeleton
import proofs.«112981_j14087492731389_1_alg».proof.Proof.Gen.Kernel.Launch
import proofs.«112981_j14087492731389_1_alg».proof.Proof.Gen.Kernel.Points
import proofs.«112981_j14087492731389_1_alg».proof.Proof.Gen.Kernel.Frame
import proofs.«112981_j14087492731389_1_alg».proof.Proof.Gen.KernelIdeal
import proofs.«112981_j14087492731389_1_alg».proof.Proof.Gen.KernelIdeal.Skeleton
import proofs.«112981_j14087492731389_1_alg».proof.Proof.Gen.KernelIdeal.Launch
import proofs.«112981_j14087492731389_1_alg».proof.Proof.Gen.KernelIdeal.Points
import proofs.«112981_j14087492731389_1_alg».proof.Proof.Gen.KernelIdeal.Frame
import proofs.«112981_j14087492731389_1_alg».proof.Proof.Gen.ReferenceIdeal
import proofs.«112981_j14087492731389_1_alg».proof.Proof.Gen.Pre_finite_inputs
import proofs.«112981_j14087492731389_1_alg».proof.Proof.Gen.ReferenceIdeal.Run
import proofs.«112981_j14087492731389_1_alg».proof.Proof.Gen.ReferenceIdeal.Read
import proofs.«112981_j14087492731389_1_alg».proof.Proof.KernelWhole
import proofs.«112981_j14087492731389_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the idealization. -/
theorem preserves : Cert.preserves_Kernel_KernelIdeal := trivial

/-- From memories that agree on the four arguments both programs end with the spline image of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v25_eq _ _ _ _).trans (Cert.ReferenceIdeal.Stages.image_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
